-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S128x512 : Shape := ⟨2, ![128, 512]⟩
abbrev S128 : Shape := ⟨1, ![128]⟩
abbrev S128x128 : Shape := ⟨2, ![128, 128]⟩
abbrev S18x128 : Shape := ⟨2, ![18, 128]⟩
abbrev S18 : Shape := ⟨1, ![18]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S18x128 : S_.BroadcastsInDim S18x128 (![] : Fin 0 → Fin S18x128.rank)
  reducesTo_S18x128_S_d0_1 : S18x128.ReducesTo [0, 1] S_
  bcast_S_S18 : S_.BroadcastsInDim S18 (![] : Fin 0 → Fin S18.rank)
  reducesTo_S18_S_d0 : S18.ReducesTo [0] S_

variable [Facts]

def fn_part3 {F : FTy → Type} [FloatOps F] (main_arg11 : FVec F S18x128 .f32) (main_arg12 : FVec F S18 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S18x128 .f32 := Host.absf main_arg11
  let main_cst_20 : FVec F S_ .f32 := constant S_ .f32 0x7F800000#32
  let main_v55 : FVec F S18x128 .f32 := broadcastInDim S18x128 ![] bcast_S_S18x128 main_cst_20
  let main_v56 : IVec S18x128 1 := cmpf .olt main_v54 main_v55
  let main_c_21 : IVec S_ 1 := constantI S_ 1 1#1
  let main_v57 : IVec S_ 1 := (fun x v => Host.reduce IntOp.andi x v reducesTo_S18x128_S_d0_1 h_S_) main_v56 main_c_21
  let main_v58 : IVec S_ 1 := andi main_v53 main_v57
  let main_v59 : FVec F S18 .f32 := Host.absf main_arg12
  let main_cst_22 : FVec F S_ .f32 := constant S_ .f32 0x7F800000#32
  let main_v60 : FVec F S18 .f32 := broadcastInDim S18 ![] bcast_S_S18 main_cst_22
  let main_v61 : IVec S18 1 := cmpf .olt main_v59 main_v60
  let main_c_23 : IVec S_ 1 := constantI S_ 1 1#1
  let main_v62 : IVec S_ 1 := (fun x v => Host.reduce IntOp.andi x v reducesTo_S18_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S18x128 .f32) (main_arg12 : FVec F S18 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S18x128 .f32) (main_arg12 : FVec F S18 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x512 .f32) (main_arg1 : FVec F S128x512 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S18x128 .f32) (main_arg12 : FVec F S18 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_v13 main_v16
-- ==== Kernel.lean ====
abbrev S131072x512 : Shape := ⟨2, ![131072, 512]⟩
abbrev S128x512 : Shape := ⟨2, ![128, 512]⟩
abbrev S128 : Shape := ⟨1, ![128]⟩
abbrev S128x128 : Shape := ⟨2, ![128, 128]⟩
abbrev S18x128 : Shape := ⟨2, ![18, 128]⟩
abbrev S18 : Shape := ⟨1, ![18]⟩
abbrev S512x128 : Shape := ⟨2, ![512, 128]⟩
abbrev S128x18 : Shape := ⟨2, ![128, 18]⟩
abbrev S1x128 : Shape := ⟨2, ![1, 128]⟩
abbrev S1x18 : Shape := ⟨2, ![1, 18]⟩
abbrev S131072x18 : Shape := ⟨2, ![131072, 18]⟩
abbrev S4096x512 : Shape := ⟨2, ![4096, 512]⟩
abbrev S4096x18 : Shape := ⟨2, ![4096, 18]⟩
abbrev S4096x128 : Shape := ⟨2, ![4096, 128]⟩
abbrev S4096 : Shape := ⟨1, ![4096]⟩
abbrev S4096x1 : Shape := ⟨2, ![4096, 1]⟩

abbrev nBuf : Space → Nat
  | .hbm => 32
  | .vmem => 16
  | .smem => 0
  | _ => 0

abbrev bufTy : (tb : Table) → Fin (tcTables nBuf tb) → BufTy
  | .hbm, ⟨0, _⟩ => ⟨S131072x512, .f32⟩
  | .hbm, ⟨1, _⟩ => ⟨S128x512, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S18x128, .f32⟩
  | .hbm, ⟨12, _⟩ => ⟨S18, .f32⟩
  | .hbm, ⟨13, _⟩ => ⟨S512x128, .f32⟩
  | .hbm, ⟨14, _⟩ => ⟨S512x128, .bf16⟩
  | .hbm, ⟨15, _⟩ => ⟨S128x128, .f32⟩
  | .hbm, ⟨16, _⟩ => ⟨S128x128, .bf16⟩
  | .hbm, ⟨17, _⟩ => ⟨S128x128, .f32⟩
  | .hbm, ⟨18, _⟩ => ⟨S128x128, .bf16⟩
  | .hbm, ⟨19, _⟩ => ⟨S128x128, .f32⟩
  | .hbm, ⟨20, _⟩ => ⟨S128x128, .bf16⟩
  | .hbm, ⟨21, _⟩ => ⟨S128x128, .f32⟩
  | .hbm, ⟨22, _⟩ => ⟨S128x128, .bf16⟩
  | .hbm, ⟨23, _⟩ => ⟨S128x18, .f32⟩
  | .hbm, ⟨24, _⟩ => ⟨S128x18, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x18, .f32⟩
  | .hbm, ⟨31, _⟩ => ⟨S131072x18, .f32⟩
  | .local _ .vmem, ⟨0, _⟩ => ⟨S4096x512, .f32⟩
  | .local _ .vmem, ⟨1, _⟩ => ⟨S4096x512, .f32⟩
  | .local _ .vmem, ⟨2, _⟩ => ⟨S512x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x18, .bf16⟩
  | .local _ .vmem, ⟨13, _⟩ => ⟨S1x18, .f32⟩
  | .local _ .vmem, ⟨14, _⟩ => ⟨S4096x18, .f32⟩
  | .local _ .vmem, ⟨15, _⟩ => ⟨S4096x18, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x18 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x18 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x18 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S128x512_S512x128_1_0 : S128x512.Transposes [1, 0] S512x128
  bitsLt_bf16_f32 : FTy.bits .bf16 < FTy.bits .f32
  transposes_S128x128_S128x128_1_0 : S128x128.Transposes [1, 0] S128x128
  transposes_S18x128_S128x18_1_0 : S18x128.Transposes [1, 0] S128x18
  shapeCasts_S128_S1x128 : S128.ShapeCasts S1x128
  shapeCasts_S18_S1x18 : S18.ShapeCasts S1x18
  inb_S4096x512_S4096x512_0_0 : ∀ a, (![0, 0] : Fin 2 → Nat) a + S4096x512.size a ≤ S4096x512.size a
  h_S4096x512 : 0 < S4096x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x18_S128x18_0_0 : ∀ a, (![0, 0] : Fin 2 → Nat) a + S128x18.size a ≤ S128x18.size a
  h_S128x18 : 0 < S128x18.numel
  shapeCasts_S128x18_S128x18 : S128x18.ShapeCasts S128x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S4096x18 : S1x18.Broadcasts S4096x18
  reduces_S4096x18_S4096 : S4096x18.Reduces [1] S4096
  shapeCasts_S4096_S4096x1 : S4096.ShapeCasts S4096x1
  broadcasts_S4096x1_S4096x18 : S4096x1.Broadcasts S4096x18
  inb_S4096x18_S4096x18_0_0 : ∀ a, (![0, 0] : Fin 2 → Nat) a + S4096x18.size a ≤ S4096x18.size a
  h_S4096x18 : 0 < S4096x18.numel
  dot_S4096x512_S512x128_S4096x128_1_0_0_1_n_n_wf : DotDims.WF S4096x512 S512x128 S4096x128 [1] [0] [0] [1] [] []
  dot_S4096x128_S128x128_S4096x128_1_0_0_1_n_n_wf : DotDims.WF S4096x128 S128x128 S4096x128 [1] [0] [0] [1] [] []
  dot_S4096x128_S128x18_S4096x18_1_0_0_1_n_n_wf : DotDims.WF S4096x128 S128x18 S4096x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x18.size a ≤ S128x18.size a
  hwx0_11 : ∀ i : grid0.Coords, EltTy.bits .bf16 = 32 ∨ (Rect.block (s := S128x18) S128x18.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x18.size a ≤ S1x18.size a
  hwx0_12 : ∀ i : grid0.Coords, EltTy.bits .f32 = 32 ∨ (Rect.block (s := S1x18) S1x18.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x18.size a ≤ S131072x18.size a
  hwx0_13 : ∀ i : grid0.Coords, EltTy.bits .f32 = 32 ∨ (Rect.block (s := S131072x18) S4096x18.size (cc0_transform_13 i) (hinb0_13 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x18_S4096x18_1_0_0_1_n_n : DotDims S4096x128 S128x18 S4096x18 where
  lhsContracting := [1]
  rhsContracting := [0]
  lhsNonContracting := [0]
  rhsNonContracting := [1]
  lhsBatch := []
  rhsBatch := []
  wf := dot_S4096x128_S128x18_S4096x18_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x18.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x18.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S4096x18.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S131072x512 : Shape := ⟨2, ![131072, 512]⟩
abbrev S128x512 : Shape := ⟨2, ![128, 512]⟩
abbrev S128 : Shape := ⟨1, ![128]⟩
abbrev S128x128 : Shape := ⟨2, ![128, 128]⟩
abbrev S18x128 : Shape := ⟨2, ![18, 128]⟩
abbrev S18 : Shape := ⟨1, ![18]⟩
abbrev S512x128 : Shape := ⟨2, ![512, 128]⟩
abbrev S131072x128 : Shape := ⟨2, ![131072, 128]⟩
abbrev S1x128 : Shape := ⟨2, ![1, 128]⟩
abbrev S_ : Shape := ⟨0, ![]⟩
abbrev S128x18 : Shape := ⟨2, ![128, 18]⟩
abbrev S131072x18 : Shape := ⟨2, ![131072, 18]⟩
abbrev S1x18 : Shape := ⟨2, ![1, 18]⟩
abbrev S131072 : Shape := ⟨1, ![131072]⟩
abbrev S131072x1 : Shape := ⟨2, ![131072, 1]⟩

abbrev nBuf : Space → Nat
  | .hbm => 72
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S128x512, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S18x128, .f32⟩
  | .hbm, ⟨12, _⟩ => ⟨S18, .f32⟩
  | .hbm, ⟨13, _⟩ => ⟨S512x128, .f32⟩
  | .hbm, ⟨14, _⟩ => ⟨S131072x128, .f32⟩
  | .hbm, ⟨15, _⟩ => ⟨S1x128, .f32⟩
  | .hbm, ⟨16, _⟩ => ⟨S131072x128, .f32⟩
  | .hbm, ⟨17, _⟩ => ⟨S131072x128, .f32⟩
  | .hbm, ⟨18, _⟩ => ⟨S_, .f32⟩
  | .hbm, ⟨19, _⟩ => ⟨S131072x128, .f32⟩
  | .hbm, ⟨20, _⟩ => ⟨S131072x128, .f32⟩
  | .hbm, ⟨21, _⟩ => ⟨S128x128, .f32⟩
  | .hbm, ⟨22, _⟩ => ⟨S131072x128, .f32⟩
  | .hbm, ⟨23, _⟩ => ⟨S1x128, .f32⟩
  | .hbm, ⟨24, _⟩ => ⟨S131072x128, .f32⟩
  | .hbm, ⟨25, _⟩ => ⟨S131072x128, .f32⟩
  | .hbm, ⟨26, _⟩ => ⟨S_, .f32⟩
  | .hbm, ⟨27, _⟩ => ⟨S131072x128, .f32⟩
  | .hbm, ⟨28, _⟩ => ⟨S131072x128, .f32⟩
  | .hbm, ⟨29, _⟩ => ⟨S128x128, .f32⟩
  | .hbm, ⟨30, _⟩ => ⟨S131072x128, .f32⟩
  | .hbm, ⟨31, _⟩ => ⟨S1x128, .f32⟩
  | .hbm, ⟨32, _⟩ => ⟨S131072x128, .f32⟩
  | .hbm, ⟨33, _⟩ => ⟨S131072x128, .f32⟩
  | .hbm, ⟨34, _⟩ => ⟨S_, .f32⟩
  | .hbm, ⟨35, _⟩ => ⟨S131072x128, .f32⟩
  | .hbm, ⟨36, _⟩ => ⟨S131072x128, .f32⟩
  | .hbm, ⟨37, _⟩ => ⟨S128x128, .f32⟩
  | .hbm, ⟨38, _⟩ => ⟨S131072x128, .f32⟩
  | .hbm, ⟨39, _⟩ => ⟨S1x128, .f32⟩
  | .hbm, ⟨40, _⟩ => ⟨S131072x128, .f32⟩
  | .hbm, ⟨41, _⟩ => ⟨S131072x128, .f32⟩
  | .hbm, ⟨42, _⟩ => ⟨S_, .f32⟩
  | .hbm, ⟨43, _⟩ => ⟨S131072x128, .f32⟩
  | .hbm, ⟨44, _⟩ => ⟨S131072x128, .f32⟩
  | .hbm, ⟨45, _⟩ => ⟨S128x128, .f32⟩
  | .hbm, ⟨46, _⟩ => ⟨S131072x128, .f32⟩
  | .hbm, ⟨47, _⟩ => ⟨S1x128, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S131072x128, .f32⟩
  | .hbm, ⟨52, _⟩ => ⟨S131072x128, .f32⟩
  | .hbm, ⟨53, _⟩ => ⟨S128x18, .f32⟩
  | .hbm, ⟨54, _⟩ => ⟨S131072x18, .f32⟩
  | .hbm, ⟨55, _⟩ => ⟨S1x18, .f32⟩
  | .hbm, ⟨56, _⟩ => ⟨S131072x18, .f32⟩
  | .hbm, ⟨57, _⟩ => ⟨S131072x18, .f32⟩
  | .hbm, ⟨58, _⟩ => ⟨S_, .f32⟩
  | .hbm, ⟨59, _⟩ => ⟨S131072, .f32⟩
  | .hbm, ⟨60, _⟩ => ⟨S_, .f32⟩
  | .hbm, ⟨61, _⟩ => ⟨S131072, .f32⟩
  | .hbm, ⟨62, _⟩ => ⟨S131072, .f32⟩
  | .hbm, ⟨63, _⟩ => ⟨S131072x1, .f32⟩
  | .hbm, ⟨64, _⟩ => ⟨S131072x18, .f32⟩
  | .hbm, ⟨65, _⟩ => ⟨S131072x18, .f32⟩
  | .hbm, ⟨66, _⟩ => ⟨S131072x18, .f32⟩
  | .hbm, ⟨67, _⟩ => ⟨S_, .f32⟩
  | .hbm, ⟨68, _⟩ => ⟨S131072, .f32⟩
  | .hbm, ⟨69, _⟩ => ⟨S131072x1, .f32⟩
  | .hbm, ⟨70, _⟩ => ⟨S131072x18, .f32⟩
  | .hbm, ⟨71, _⟩ => ⟨S131072x18, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call2_cst : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call3_cst : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call4_cst : Ref sig .tc := ⟨.hbm, 50, rfl⟩
abbrev main_call4_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_cst_0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_1 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  transposes_S128x128_S128x128_1_0 : S128x128.Transposes [1, 0] S128x128
  transposes_S18x128_S128x18_1_0 : S18x128.Transposes [1, 0] S128x18
  bcast_S18_S1x18_1 : S18.BroadcastsInDim S1x18 (![1] : Fin 1 → Fin S1x18.rank)
  bcast_S1x18_S131072x18_0_1 : S1x18.BroadcastsInDim S131072x18 (![0, 1] : Fin 2 → Fin S131072x18.rank)
  reducesTo_S131072x18_S131072_d1 : S131072x18.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x18_0_1 : S131072x1.BroadcastsInDim S131072x18 (![0, 1] : Fin 2 → Fin S131072x18.rank)
  dot_S131072x512_S512x128_S131072x128_1_0_0_1_n_n_wf : DotDims.WF S131072x512 S512x128 S131072x128 [1] [0] [0] [1] [] []
  dot_S131072x128_S128x128_S131072x128_1_0_0_1_n_n_wf : DotDims.WF S131072x128 S128x128 S131072x128 [1] [0] [0] [1] [] []
  dot_S131072x128_S128x18_S131072x18_1_0_0_1_n_n_wf : DotDims.WF S131072x128 S128x18 S131072x18 [1] [0] [0] [1] [] []

variable [Facts₀]

def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x18_S131072x18_1_0_0_1_n_n : DotDims S131072x128 S128x18 S131072x18 where
  lhsContracting := [1]
  rhsContracting := [0]
  lhsNonContracting := [0]
  rhsNonContracting := [1]
  lhsBatch := []
  rhsBatch := []
  wf := dot_S131072x128_S128x18_S131072x18_1_0_0_1_n_n_wf

class Facts : Prop extends Facts₀ where

variable [Facts]
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«420143_j47321949667584_3_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.LibRowReduce.lean ====
/-
  ROW-WISE REDUCTIONS OF A MATRIX, AND THEIR KEEPDIMS RE-LAYING, READ AT AN INDEX (at the ideal instance).

  For an [a, b] array x:
  * a lane reduction over the last axis (vector.multi_reduction over [1]) read at row p: with a maximum body the fold
    of max from the accumulator's value over the row's b entries (`multiReduction_maximumf_rows`), with an add body
    the sum of the row's entries (`multiReduction_add_rows`);
  * the host's reduce over the last axis read at row p: with a maximum body the same fold from the initial value's
    element (`hostReduce_maximumf_rows`), with an add body the initial value plus the row's sum
    (`hostReduceAdd_rows`);
  * the keepdims forms: an [a] array cast to [a, 1] reads, at (p, z), entry p (`shapeCast_a_a1_apply`); an [a, 1]
    array broadcast to [a, b] reads, at (p, c), entry (p, 0) (`broadcastTo_a1_ab_apply`); and the host's two
    broadcast_in_dim forms of the same, [a] to [a, 1] along axis 0 (`broadcastInDim_a_a1_apply`) and [a, 1] to
    [a, b] along both axes (`broadcastInDim_a1_ab_apply`), a [b] array to one row [1, b] along axis 1
    (`broadcastInDim_b_1b_apply`), one row [1, b] to [a, b] (`broadcastInDim_1b_ab_apply`), a scalar to any shape
    (`broadcastInDim_scalar_apply`).
  In each reduction the index of the reduced array with coordinate k of the dropped axis put back is (p, k)
  (`lift_rows`).
-/
import Idealize.ShloMosaic.PureOps.Ideal.Laws
import Idealize.ShloMosaic.Lib.ValueIdx
import Idealize.ShloMosaic.Lib.Pipeline.Value

noncomputable section

namespace Idealize.ShloMosaic.RowReduce

open Idealize.ShloMosaic Idealize.ShloMosaic.ValueIdx

variable {α : Type}

/-! ## The keepdims forms -/

/-- An [a] array cast to [a, 1] reads, at (p, z), entry p. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- An [a, 1] array broadcast to [a, b] reads, at (p, c), the operand's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an [a] array to [a, 1] along axis 0 reads, at (p, z), entry p. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) := by
  refine broadcastInDim_apply _ h x (ix2 p z) (ix1 p) fun ax => ?_
  match ax with
  | ⟨0, _⟩ =>
    show p.val = if a = 1 then 0 else p.val
    split
    · have := p.isLt; omega
    · rfl

/-- The host's broadcast of an [a, 1] array to [a, b] along both axes reads, at (p, c), entry (p, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a [b] array to one row [1, b] along axis 1 reads, at (u, c), entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of one row [1, b] to [a, b] along both axes reads, at (p, c), the row's entry c. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar's one element at every index. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-! ## Reductions over the last axis -/

/-- Row p of the reduced array with column k put back is (p, k). -/
theorem lift_rows {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

variable {φ : FTy}

/-- A lane reduction with a maximum body over the last axis, at row p: the fold of max over the row from the
    accumulator's value. -/
theorem multiReduction_maximumf_rows {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  have hf : (src ∘ h.lift (ix1 p)) = fun k : Fin b => src (ix2 p k) := funext fun k => congrArg src (lift_rows h p k)
  exact congrArg (fun f => Finset.fold max (Ideal.ofBits φ acc) f (Finset.univ : Finset (Fin b))) hf

/-- A lane reduction with an add body over the last axis, at row p: the sum of the row. -/
theorem multiReduction_add_rows {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_rows h p k)

/-- The host's reduce with a maximum body over the last axis, at row p: the fold of max over the row from the initial
    value's element. -/
theorem hostReduce_maximumf_rows {a b : ℕ} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) := funext fun k => congrArg x (lift_rows h p k)
  exact congrArg (fun f => Finset.fold max (init (Shape.Idx.first hu)) f (Finset.univ : Finset (Fin b))) hf

/-- The host's reduce with an add body over the last axis, at row p: the initial value's element plus the row's sum. -/
theorem hostReduceAdd_rows {a b : ℕ} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  exact congrArg (_ + ·) (Finset.sum_congr rfl fun k _ => congrArg x (lift_rows h p k))

end Idealize.ShloMosaic.RowReduce

end
-- ==== Proof.LibDenseSoftmax.lean ====
/-
  A DENSE LAYER AND A ROW SOFTMAX, ON THE HOST AND ON A KERNEL'S BLOCK, READ AT AN INDEX (at the ideal instance).

  The row-level functions. For a row h of K entries, a weight matrix W given as N rows of K entries (fan-out by fan-in)
  and a bias b of N entries, `dense h W b` is the row q ↦ (∑ k, h k · W q k) + b q; `hidden` is that followed by the
  maximum with the zero word's value (ReLU); `softmax s` is a ↦ exp (s a − m) / ∑ j, exp (s j − m), with m the fold of max
  over the row from the word 0xFF800000's value (−∞): the numerically stable form both programs compute.

  Read at (p, q):
  * `host_dense_at`: the host's dot_general of an [M, K] array with the TRANSPOSE of an [N, K] weight array, plus the
    [N] bias broadcast first to one row and then over the M rows, is `dense` of row p of the array, the weight array's
    rows and the bias;
  * `block_dense_at`: a matrix product of an [M, K] block with a [K, N] matrix (the weights stored fan-in by fan-out) into
    the zero splat, plus a [1, N] bias row broadcast over the M rows, is `dense` of row p of the block, the matrix read
    transposed, and the bias row;
  * `host_softmax_at` and `block_softmax_at`: the host's and a block's softmax over the last axis (row maximum kept as a
    column and broadcast back, subtract, exponential, row sum kept as a column and broadcast back, divide) are `softmax`
    of row p; on the host the row maximum is first joined with a −∞ splat and the row sum starts from the zero word.
-/
import Idealize.ShloMosaic.PureOps.Ideal.Laws
import Idealize.ShloMosaic.Lib.ValueIdx
import Idealize.ShloMosaic.Lib.ValueLayout
import Idealize.ShloMosaic.Lib.Pipeline.Value
import proofs.«420143_j47321949667584_3_alg».proof.Proof.LibDotAt
import proofs.«420143_j47321949667584_3_alg».proof.Proof.LibRowReduce

noncomputable section

namespace Idealize.ShloMosaic.DenseRow

open Idealize.ShloMosaic Idealize.ShloMosaic.ValueIdx Idealize.ShloMosaic.RowReduce

/-! ## The row-level functions -/

/-- A dense layer on one row: q ↦ (∑ k, h k · W q k) + b q. -/
def dense {K N : ℕ} (h : Fin K → EReal) (W : Fin N → Fin K → EReal) (b : Fin N → EReal) : Fin N → EReal :=
  fun q => (∑ k : Fin K, h k * W q k) + b q

/-- A dense layer followed by the maximum with zero (the zero word's value). -/
def hidden {K N : ℕ} (h : Fin K → EReal) (W : Fin N → Fin K → EReal) (b : Fin N → EReal) : Fin N → EReal :=
  fun q => max (dense h W b q) (Ideal.ofBits .f32 0x00000000#32)

/-- The maximum of a row, folded from −∞ (the word 0xFF800000's value). -/
def rowMax {N : ℕ} (s : Fin N → EReal) : EReal :=
  (Finset.univ : Finset (Fin N)).fold max (Ideal.ofBits .f32 0xFF800000#32) s

/-- The stable softmax of a row. -/
def softmax {N : ℕ} (s : Fin N → EReal) : Fin N → EReal :=
  fun a => Ideal.div (Ideal.exp (s a - rowMax s)) (∑ j : Fin N, Ideal.exp (s j - rowMax s))

/-! ## A dense layer read at an index -/

/-- The host's dense layer at (p, q). -/
theorem host_dense_at {M K N : ℕ} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none l (transpose ⟨2, ![K, N]⟩ [1, 0] W ht))
        (broadcastInDim ⟨2, ![M, N]⟩ ![0, 1] h2 (broadcastInDim ⟨2, ![1, N]⟩ ![1] h1 b)) (ix2 p q)
      = dense (fun k => l (ix2 p k)) (fun q k => W (ix2 q k)) (fun q => b (ix1 q)) q := by
  rw [addf_apply, DotAt.dotGeneral_plain d hr hs hlc hrc hln hrn hlb hrb, broadcastInDim_1b_ab_apply,
    broadcastInDim_b_1b_apply]
  have e : ∀ k : Fin K, transpose ⟨2, ![K, N]⟩ [1, 0] W ht (ix2 k q) = W (ix2 q k) := fun k =>
    transpose_ix2_apply W ht k q
  simp only [e]
  rfl

/-- A block's dense layer at (p, q). -/
theorem block_dense_at {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (w : FVec Ideal ⟨2, ![K, N]⟩ φ₂) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (q : Fin N) :
    addf (matmul d none l (shapeCast ⟨2, ![K, N]⟩ w hw) (constant ⟨2, ![M, N]⟩ .f32 0x00000000#32))
        (broadcastTo ⟨2, ![M, N]⟩ (shapeCast ⟨2, ![1, N]⟩ b hb) hbc) (ix2 p q)
      = dense (fun k => l (ix2 p k)) (fun q k => w (ix2 k q)) (fun q => b (ix2 (0 : Fin 1) q)) q := by
  rw [addf_apply, shapeCast_self, shapeCast_self, DotAt.matmul_plain d hr hs hlc hrc hln hrn hlb hrb,
    broadcastTo_1b_ab_apply]
  rfl

/-! ## A row softmax read at an index -/

/-- Joining −∞ changes nothing. -/
theorem max_negInf (y : EReal) : max (Ideal.ofBits .f32 0xFF800000#32) y = y := by
  simp [Ideal.ofBits, Ideal.ieee]

/-- A block's softmax over the last axis at (p, a). -/
theorem block_softmax_at {M N : ℕ} (s : FVec Ideal ⟨2, ![M, N]⟩ .f32)
    (hred : (⟨2, ![M, N]⟩ : Shape).Reduces [1] (⟨1, ![M]⟩ : Shape))
    (hφ : FKind.Formats .f32) (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (a : Fin N) :
    divf (exp (subf s (broadcastTo ⟨2, ![M, N]⟩ (shapeCast ⟨2, ![M, 1]⟩
            (multiReduction .maximumf [1] ⟨1, ![M]⟩ s 0xFF800000#32 hred hφ hmax) hc) hb)))
        (broadcastTo ⟨2, ![M, N]⟩ (shapeCast ⟨2, ![M, 1]⟩
          (multiReduction .add [1] ⟨1, ![M]⟩
            (exp (subf s (broadcastTo ⟨2, ![M, N]⟩ (shapeCast ⟨2, ![M, 1]⟩
              (multiReduction .maximumf [1] ⟨1, ![M]⟩ s 0xFF800000#32 hred hφ hmax) hc) hb)))
            0x00000000#32 hred hφ hadd) hc) hb) (ix2 p a)
      = softmax (fun j => s (ix2 p j)) a := by
  rw [divf_apply, broadcastTo_a1_ab_apply, shapeCast_a_a1_apply, multiReduction_add_rows]
  have e : ∀ j : Fin N, exp (subf s (broadcastTo ⟨2, ![M, N]⟩ (shapeCast ⟨2, ![M, 1]⟩
            (multiReduction .maximumf [1] ⟨1, ![M]⟩ s 0xFF800000#32 hred hφ hmax) hc) hb)) (ix2 p j)
        = Ideal.exp (s (ix2 p j) - rowMax (fun j => s (ix2 p j))) := fun j => by
    show Ideal.exp (s (ix2 p j) - broadcastTo ⟨2, ![M, N]⟩ (shapeCast ⟨2, ![M, 1]⟩
            (multiReduction .maximumf [1] ⟨1, ![M]⟩ s 0xFF800000#32 hred hφ hmax) hc) hb (ix2 p j)) = _
    rw [broadcastTo_a1_ab_apply, shapeCast_a_a1_apply, multiReduction_maximumf_rows]
    rfl
  simp only [e]
  rfl

/-- The host's softmax over the last axis at (p, a). -/
theorem host_softmax_at {M N : ℕ} (s : FVec Ideal ⟨2, ![M, N]⟩ .f32)
    (h' : (⟨2, ![M, N]⟩ : Shape).ReducesTo [1] (⟨1, ![M]⟩ : Shape))
    (hred : (⟨2, ![M, N]⟩ : Shape).Reduces [1] (⟨1, ![M]⟩ : Shape))
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (a : Fin N) :
    Host.divf (Host.exp (subf s (broadcastInDim ⟨2, ![M, N]⟩ ![0, 1] h2 (broadcastInDim ⟨2, ![M, 1]⟩ ![0] h1
            (maximumf (broadcastInDim ⟨1, ![M]⟩ ![] h0 (constant ⟨0, ![]⟩ .f32 0xFF800000#32))
              (Host.reduce FloatOps.maximumf s (constant ⟨0, ![]⟩ .f32 0xFF800000#32) h' hu))))))
        (broadcastInDim ⟨2, ![M, N]⟩ ![0, 1] h2 (broadcastInDim ⟨2, ![M, 1]⟩ ![0] h1
          (Host.reduceAdd
            (Host.exp (subf s (broadcastInDim ⟨2, ![M, N]⟩ ![0, 1] h2 (broadcastInDim ⟨2, ![M, 1]⟩ ![0] h1
              (maximumf (broadcastInDim ⟨1, ![M]⟩ ![] h0 (constant ⟨0, ![]⟩ .f32 0xFF800000#32))
                (Host.reduce FloatOps.maximumf s (constant ⟨0, ![]⟩ .f32 0xFF800000#32) h' hu))))))
            (constant ⟨0, ![]⟩ .f32 0x00000000#32) h' hu))) (ix2 p a)
      = softmax (fun j => s (ix2 p j)) a := by
  have e : ∀ j : Fin N, Host.exp (subf s (broadcastInDim ⟨2, ![M, N]⟩ ![0, 1] h2 (broadcastInDim ⟨2, ![M, 1]⟩ ![0] h1
            (maximumf (broadcastInDim ⟨1, ![M]⟩ ![] h0 (constant ⟨0, ![]⟩ .f32 0xFF800000#32))
              (Host.reduce FloatOps.maximumf s (constant ⟨0, ![]⟩ .f32 0xFF800000#32) h' hu))))) (ix2 p j)
        = Ideal.exp (s (ix2 p j) - rowMax (fun j => s (ix2 p j))) := fun j => by
    show Ideal.exp (s (ix2 p j) - broadcastInDim ⟨2, ![M, N]⟩ ![0, 1] h2 (broadcastInDim ⟨2, ![M, 1]⟩ ![0] h1
            (maximumf (broadcastInDim ⟨1, ![M]⟩ ![] h0 (constant ⟨0, ![]⟩ .f32 0xFF800000#32))
              (Host.reduce FloatOps.maximumf s (constant ⟨0, ![]⟩ .f32 0xFF800000#32) h' hu))) (ix2 p j)) = _
    rw [broadcastInDim_a1_ab_apply, broadcastInDim_a_a1_apply, maximumf_apply, broadcastInDim_scalar_apply,
      hostReduce_maximumf_rows s _ h' hred hu, constant_apply, max_negInf]
    rfl
  show Ideal.div _ _ = _
  rw [e, broadcastInDim_a1_ab_apply, broadcastInDim_a_a1_apply, hostReduceAdd_rows _ _ h' hred hu]
  simp only [e]
  rw [constant_apply, Ideal.ofBits_zero_f32, zero_add]
  rfl

end Idealize.ShloMosaic.DenseRow

end
-- ==== Proof.Policy.lean ====
/-
  The specification: what both programs compute, as ONE function of the argument arrays.

  One row of the batch goes through five dense layers, each followed by the maximum with zero, then a sixth dense layer
  whose 18 scores go through the stable softmax; the weights are given fan-out by fan-in, as the arguments hold them.
  `policyRow` is that function of a row of 512 entries; `G` reads it off the argument arrays: entry (r, a) of the
  result is `policyRow` of row r of x, at a. Row r of the result depends on row r of x only.
-/
import proofs.«420143_j47321949667584_3_alg».proof.Proof.LibDenseSoftmax

noncomputable section

namespace Cert.Policy

open Idealize.ShloMosaic Idealize.ShloMosaic.ValueIdx Idealize.ShloMosaic.DenseRow

/-- One row: five hidden layers and the softmax of the sixth layer's scores. -/
def policyRow (x : Fin 512 → EReal)
    (W1 : Fin 128 → Fin 512 → EReal) (b1 : Fin 128 → EReal) (W2 : Fin 128 → Fin 128 → EReal) (b2 : Fin 128 → EReal)
    (W3 : Fin 128 → Fin 128 → EReal) (b3 : Fin 128 → EReal) (W4 : Fin 128 → Fin 128 → EReal) (b4 : Fin 128 → EReal)
    (W5 : Fin 128 → Fin 128 → EReal) (b5 : Fin 128 → EReal) (W6 : Fin 18 → Fin 128 → EReal) (b6 : Fin 18 → EReal) :
    Fin 18 → EReal :=
  softmax (dense (hidden (hidden (hidden (hidden (hidden x W1 b1) W2 b2) W3 b3) W4 b4) W5 b5) W6 b6)

/-- The whole result array: entry (r, a) is `policyRow` of row r of x at a. -/
def G (x : FVec Ideal ⟨2, ![131072, 512]⟩ .f32)
    (W1 : FVec Ideal ⟨2, ![128, 512]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32) (b3 : FVec Ideal ⟨1, ![128]⟩ .f32)
    (W4 : FVec Ideal ⟨2, ![128, 128]⟩ .f32) (b4 : FVec Ideal ⟨1, ![128]⟩ .f32)
    (W5 : FVec Ideal ⟨2, ![128, 128]⟩ .f32) (b5 : FVec Ideal ⟨1, ![128]⟩ .f32)
    (W6 : FVec Ideal ⟨2, ![18, 128]⟩ .f32) (b6 : FVec Ideal ⟨1, ![18]⟩ .f32) : FVec Ideal ⟨2, ![131072, 18]⟩ .f32 :=
  fun i => policyRow (fun k => x (ix2 (i 0) k))
    (fun q k => W1 (ix2 q k)) (fun q => b1 (ix1 q)) (fun q k => W2 (ix2 q k)) (fun q => b2 (ix1 q))
    (fun q k => W3 (ix2 q k)) (fun q => b3 (ix1 q)) (fun q k => W4 (ix2 q k)) (fun q => b4 (ix1 q))
    (fun q k => W5 (ix2 q k)) (fun q => b5 (ix1 q)) (fun q k => W6 (ix2 q k)) (fun q => b6 (ix1 q)) (i 1)

end Cert.Policy

end
-- ==== Proof.KernelRow.lean ====
/-
  The kernel body's stored value at an index. The body's one store writes, at (p, a) of its [4096, 18] block, the
  specification's row function of row p of the x block, with the weight blocks read transposed (the kernel is handed them
  fan-in by fan-out) and each bias block's one row: the six matrix products into zero splats are the dense layers' sums,
  the changes of float format are the identity, and the lane maximum and lane sum kept as columns are the softmax's.
-/
import proofs.«420143_j47321949667584_3_alg».proof.Proof.Gen.KernelIdeal.Skeleton
import proofs.«420143_j47321949667584_3_alg».proof.Proof.Policy

noncomputable section

namespace Cert.KernelIdeal.Row

open Cert.KernelIdeal Cert.KernelIdeal.Gen Idealize.ShloMosaic Idealize.ShloMosaic.ValueIdx
open Idealize.ShloMosaic.DenseRow Cert.Policy

/-- The stored block at (p, a), from the loaded blocks. -/
theorem pay_at (x0 : Vec Ideal S4096x512 .f32) (w1 : Vec Ideal S512x128 .bf16) (b1 : Vec Ideal S1x128 .f32)
    (w2 : Vec Ideal S128x128 .bf16) (b2 : Vec Ideal S1x128 .f32) (w3 : Vec Ideal S128x128 .bf16) (b3 : Vec Ideal S1x128 .f32)
    (w4 : Vec Ideal S128x128 .bf16) (b4 : Vec Ideal S1x128 .f32) (w5 : Vec Ideal S128x128 .bf16) (b5 : Vec Ideal S1x128 .f32)
    (w6 : Vec Ideal S128x18 .bf16) (b6 : Vec Ideal S1x18 .f32) (p : Fin 4096) (a : Fin 18) :
    k0_pay1 (F := Ideal) (k0_pay2 (F := Ideal) x0 w1 b1 w2 b2 w3 b3 w4) b4 w5 b5 w6 b6 (ix2 p a)
      = policyRow (fun k => x0 (ix2 p k))
          (fun q k => w1 (ix2 k q)) (fun q => b1 (ix2 (0 : Fin 1) q)) (fun q k => w2 (ix2 k q)) (fun q => b2 (ix2 (0 : Fin 1) q))
          (fun q k => w3 (ix2 k q)) (fun q => b3 (ix2 (0 : Fin 1) q)) (fun q k => w4 (ix2 k q)) (fun q => b4 (ix2 (0 : Fin 1) q))
          (fun q k => w5 (ix2 k q)) (fun q => b5 (ix2 (0 : Fin 1) q)) (fun q k => w6 (ix2 k q)) (fun q => b6 (ix2 (0 : Fin 1) q)) a := by
  unfold k0_pay1 k0_pay2
  simp only [block_softmax_at (hφ := Or.inl rfl) (hmax := rfl) (hadd := rfl),
    block_dense_at dot_S4096x512_S512x128_S4096x128_1_0_0_1_n_n rfl rfl rfl rfl rfl rfl rfl rfl,
    block_dense_at dot_S4096x128_S128x128_S4096x128_1_0_0_1_n_n rfl rfl rfl rfl rfl rfl rfl rfl,
    block_dense_at dot_S4096x128_S128x18_S4096x18_1_0_0_1_n_n rfl rfl rfl rfl rfl rfl rfl rfl,
    truncf_apply, maximumf_apply, broadcast_apply]
  rfl

end Cert.KernelIdeal.Row

end
-- ==== Proof.KernelArray.lean ====
/-
  From the blocks to the array: the kernel's result array after the run is the specification `G` of the argument arrays.

  The grid has 32 points; point t stages rows 4096 t … 4096 t + 4095 of x and the whole of each weight and bias array as
  the host operations before the call left them (the weights transposed, the biases as one row; the change of float
  format is the identity), and writes back rows 4096 t … 4096 t + 4095 of the result. What the body stores at (p, a) is the
  row function of row p of its x block (KernelRow), that is of row 4096 t + p of x: so point t writes block t of `G`, the
  32 blocks cover the 131072 rows, and the array ends holding `G`.
-/
import proofs.«420143_j47321949667584_3_alg».proof.Proof.Gen.KernelIdeal.Value
import proofs.«420143_j47321949667584_3_alg».proof.Proof.KernelRow
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Arr

open Cert.KernelIdeal Cert.KernelIdeal.Gen Cert.KernelIdeal.Value Idealize.ShloMosaic.ValueIdx
open Idealize.ShloMosaic.DenseRow Cert.Policy Cert.KernelIdeal.Row

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the grid: the x window and the result window are at block (t, 0), every weight
    and bias window at block (0, 0). -/
theorem idx_facts : ∀ t : Fin cfg0.N,
    win0_0.index t (0 : Fin 2) = t.val
    ∧ win0_0.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

theorem point_lt (t : Fin cfg0.N) : t.val < 32 :=
  Nat.lt_of_lt_of_eq t.isLt (show cfg0.N = 32 from N_0)

/-! ## The arrays the host operations wrote before the call -/

/-- The array window 1 stages: main_arg1 transposed (the change of float format is the identity). -/
theorem V_w1 (c : Dev nD) : (V m c main_v1 : S512x128.Idx → EReal)
    = truncf (F := Ideal) .bf16 (transpose S512x128 [1, 0] ((m ((c : Thread nD τ).loc main_arg1)) : S128x512.Idx → EReal) transposes_S128x512_S512x128_1_0) bitsLt_bf16_f32 := by
  dsimp only [Gen.V, Gen.hostOps0]; after_results

/-- The array window 2 stages: main_arg2 as one row. -/
theorem V_b1 (c : Dev nD) : (V m c main_v12 : S1x128.Idx → EReal)
    = shapeCast S1x128 ((m ((c : Thread nD τ).loc main_arg2)) : S128.Idx → EReal) shapeCasts_S128_S1x128 := by
  dsimp only [Gen.V, Gen.hostOps0]; after_results; rfl

/-- The array window 3 stages: main_arg3 transposed (the change of float format is the identity). -/
theorem V_w2 (c : Dev nD) : (V m c main_v3 : S128x128.Idx → EReal)
    = truncf (F := Ideal) .bf16 (transpose S128x128 [1, 0] ((m ((c : Thread nD τ).loc main_arg3)) : S128x128.Idx → EReal) transposes_S128x128_S128x128_1_0) bitsLt_bf16_f32 := by
  dsimp only [Gen.V, Gen.hostOps0]; after_results

/-- The array window 4 stages: main_arg4 as one row. -/
theorem V_b2 (c : Dev nD) : (V m c main_v13 : S1x128.Idx → EReal)
    = shapeCast S1x128 ((m ((c : Thread nD τ).loc main_arg4)) : S128.Idx → EReal) shapeCasts_S128_S1x128 := by
  dsimp only [Gen.V, Gen.hostOps0]; after_results; rfl

/-- The array window 5 stages: main_arg5 transposed (the change of float format is the identity). -/
theorem V_w3 (c : Dev nD) : (V m c main_v5 : S128x128.Idx → EReal)
    = truncf (F := Ideal) .bf16 (transpose S128x128 [1, 0] ((m ((c : Thread nD τ).loc main_arg5)) : S128x128.Idx → EReal) transposes_S128x128_S128x128_1_0) bitsLt_bf16_f32 := by
  dsimp only [Gen.V, Gen.hostOps0]; after_results

/-- The array window 6 stages: main_arg6 as one row. -/
theorem V_b3 (c : Dev nD) : (V m c main_v14 : S1x128.Idx → EReal)
    = shapeCast S1x128 ((m ((c : Thread nD τ).loc main_arg6)) : S128.Idx → EReal) shapeCasts_S128_S1x128 := by
  dsimp only [Gen.V, Gen.hostOps0]; after_results; rfl

/-- The array window 7 stages: main_arg7 transposed (the change of float format is the identity). -/
theorem V_w4 (c : Dev nD) : (V m c main_v7 : S128x128.Idx → EReal)
    = truncf (F := Ideal) .bf16 (transpose S128x128 [1, 0] ((m ((c : Thread nD τ).loc main_arg7)) : S128x128.Idx → EReal) transposes_S128x128_S128x128_1_0) bitsLt_bf16_f32 := by
  dsimp only [Gen.V, Gen.hostOps0]; after_results

/-- The array window 8 stages: main_arg8 as one row. -/
theorem V_b4 (c : Dev nD) : (V m c main_v15 : S1x128.Idx → EReal)
    = shapeCast S1x128 ((m ((c : Thread nD τ).loc main_arg8)) : S128.Idx → EReal) shapeCasts_S128_S1x128 := by
  dsimp only [Gen.V, Gen.hostOps0]; after_results; rfl

/-- The array window 9 stages: main_arg9 transposed (the change of float format is the identity). -/
theorem V_w5 (c : Dev nD) : (V m c main_v9 : S128x128.Idx → EReal)
    = truncf (F := Ideal) .bf16 (transpose S128x128 [1, 0] ((m ((c : Thread nD τ).loc main_arg9)) : S128x128.Idx → EReal) transposes_S128x128_S128x128_1_0) bitsLt_bf16_f32 := by
  dsimp only [Gen.V, Gen.hostOps0]; after_results

/-- The array window 10 stages: main_arg10 as one row. -/
theorem V_b5 (c : Dev nD) : (V m c main_v16 : S1x128.Idx → EReal)
    = shapeCast S1x128 ((m ((c : Thread nD τ).loc main_arg10)) : S128.Idx → EReal) shapeCasts_S128_S1x128 := by
  dsimp only [Gen.V, Gen.hostOps0]; after_results; rfl

/-- The array window 11 stages: main_arg11 transposed (the change of float format is the identity). -/
theorem V_w6 (c : Dev nD) : (V m c main_v11 : S128x18.Idx → EReal)
    = truncf (F := Ideal) .bf16 (transpose S128x18 [1, 0] ((m ((c : Thread nD τ).loc main_arg11)) : S18x128.Idx → EReal) transposes_S18x128_S128x18_1_0) bitsLt_bf16_f32 := by
  dsimp only [Gen.V, Gen.hostOps0]; after_results

/-- The array window 12 stages: main_arg12 as one row. -/
theorem V_b6 (c : Dev nD) : (V m c main_v17 : S1x18.Idx → EReal)
    = shapeCast S1x18 ((m ((c : Thread nD τ).loc main_arg12)) : S18.Idx → EReal) shapeCasts_S18_S1x18 := by
  dsimp only [Gen.V, Gen.hostOps0]; after_results; rfl

/-! ## Each window's block at a point, read at an index -/

/-- Row p of the x block at point t is row 4096 t + p of x. -/
theorem x_at (c : Dev nD) (t : Fin cfg0.N) (p : Fin 4096) (k : Fin 512) (r : Fin 131072) (hr : r.val = 4096 * t.val + p.val) :
    (iblk m c 0 t : Vec Ideal S4096x512 .f32) (ix2 p k) = ((m ((c : Thread nD τ).loc main_arg0)) : S131072x512.Idx → EReal) (ix2 r k) := by
  obtain ⟨e0, e1, -⟩ := idx_facts t
  unfold iblk
  rw [View.read_apply]
  show V m c main_arg0 _ = _
  rw [V_main_arg0]
  congr 1
  funext a; apply Fin.ext
  match a with
  | ⟨0, _⟩ => show win0_0.index t (0 : Fin 2) * 4096 + 1 * p.val = r.val; omega
  | ⟨1, _⟩ => show win0_0.index t (1 : Fin 2) * 512 + 1 * k.val = k.val; omega

/-- Window 1's block, at any point, read at (k, q) is main_arg1 at (q, k). -/
theorem w1_at (c : Dev nD) (t : Fin cfg0.N) (k : Fin 512) (q : Fin 128) :
    (iblk m c 1 t : Vec Ideal S512x128 .bf16) (ix2 k q) = ((m ((c : Thread nD τ).loc main_arg1)) : S128x512.Idx → EReal) (ix2 q k) := by
  obtain ⟨-, -, -, -, e0, e1, -⟩ := idx_facts t
  unfold iblk
  rw [View.read_apply]
  have e : ((cfg0.win 1).blk t).view.emb (ix2 k q) = (ix2 k q : S512x128.Idx) := by
    funext a; apply Fin.ext
    match a with
    | ⟨0, _⟩ => show win0_1.index t (0 : Fin 2) * 512 + 1 * k.val = k.val; omega
    | ⟨1, _⟩ => show win0_1.index t (1 : Fin 2) * 128 + 1 * q.val = q.val; omega
  show (V m c main_v1 : S512x128.Idx → EReal) _ = _
  rw [e, V_w1, truncf_apply, transpose_ix2_apply]

/-- Window 2's block, at any point, read at (0, q) is main_arg2 at q. -/
theorem b1_at (c : Dev nD) (t : Fin cfg0.N) (q : Fin 128) :
    (iblk m c 2 t : Vec Ideal S1x128 .f32) (ix2 (0 : Fin 1) q) = ((m ((c : Thread nD τ).loc main_arg2)) : S128.Idx → EReal) (ix1 q) := by
  obtain ⟨-, -, -, -, -, -, e0, e1, -⟩ := idx_facts t
  unfold iblk
  rw [View.read_apply]
  have e : ((cfg0.win 2).blk t).view.emb (ix2 (0 : Fin 1) q) = (ix2 (0 : Fin 1) q : S1x128.Idx) := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show (V m c main_v12 : S1x128.Idx → EReal) _ = _
  rw [e, V_b1, shapeCast_a_1a_apply]

/-- Window 3's block, at any point, read at (k, q) is main_arg3 at (q, k). -/
theorem w2_at (c : Dev nD) (t : Fin cfg0.N) (k : Fin 128) (q : Fin 128) :
    (iblk m c 3 t : Vec Ideal S128x128 .bf16) (ix2 k q) = ((m ((c : Thread nD τ).loc main_arg3)) : S128x128.Idx → EReal) (ix2 q k) := by
  obtain ⟨-, -, -, -, -, -, -, -, e0, e1, -⟩ := idx_facts t
  unfold iblk
  rw [View.read_apply]
  have e : ((cfg0.win 3).blk t).view.emb (ix2 k q) = (ix2 k q : S128x128.Idx) := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  show (V m c main_v3 : S128x128.Idx → EReal) _ = _
  rw [e, V_w2, truncf_apply, transpose_ix2_apply]

/-- Window 4's block, at any point, read at (0, q) is main_arg4 at q. -/
theorem b2_at (c : Dev nD) (t : Fin cfg0.N) (q : Fin 128) :
    (iblk m c 4 t : Vec Ideal S1x128 .f32) (ix2 (0 : Fin 1) q) = ((m ((c : Thread nD τ).loc main_arg4)) : S128.Idx → EReal) (ix1 q) := by
  obtain ⟨-, -, -, -, -, -, -, -, -, -, e0, e1, -⟩ := idx_facts t
  unfold iblk
  rw [View.read_apply]
  have e : ((cfg0.win 4).blk t).view.emb (ix2 (0 : Fin 1) q) = (ix2 (0 : Fin 1) q : S1x128.Idx) := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  show (V m c main_v13 : S1x128.Idx → EReal) _ = _
  rw [e, V_b2, shapeCast_a_1a_apply]

/-- Window 5's block, at any point, read at (k, q) is main_arg5 at (q, k). -/
theorem w3_at (c : Dev nD) (t : Fin cfg0.N) (k : Fin 128) (q : Fin 128) :
    (iblk m c 5 t : Vec Ideal S128x128 .bf16) (ix2 k q) = ((m ((c : Thread nD τ).loc main_arg5)) : S128x128.Idx → EReal) (ix2 q k) := by
  obtain ⟨-, -, -, -, -, -, -, -, -, -, -, -, e0, e1, -⟩ := idx_facts t
  unfold iblk
  rw [View.read_apply]
  have e : ((cfg0.win 5).blk t).view.emb (ix2 k q) = (ix2 k q : S128x128.Idx) := by
    funext a; apply Fin.ext
    match a with
    | ⟨0, _⟩ => show win0_5.index t (0 : Fin 2) * 128 + 1 * k.val = k.val; omega
    | ⟨1, _⟩ => show win0_5.index t (1 : Fin 2) * 128 + 1 * q.val = q.val; omega
  show (V m c main_v5 : S128x128.Idx → EReal) _ = _
  rw [e, V_w3, truncf_apply, transpose_ix2_apply]

/-- Window 6's block, at any point, read at (0, q) is main_arg6 at q. -/
theorem b3_at (c : Dev nD) (t : Fin cfg0.N) (q : Fin 128) :
    (iblk m c 6 t : Vec Ideal S1x128 .f32) (ix2 (0 : Fin 1) q) = ((m ((c : Thread nD τ).loc main_arg6)) : S128.Idx → EReal) (ix1 q) := by
  obtain ⟨-, -, -, -, -, -, -, -, -, -, -, -, -, -, e0, e1, -⟩ := idx_facts t
  unfold iblk
  rw [View.read_apply]
  have e : ((cfg0.win 6).blk t).view.emb (ix2 (0 : Fin 1) q) = (ix2 (0 : Fin 1) q : S1x128.Idx) := by
    funext a; apply Fin.ext
    match a with
    | ⟨0, _⟩ => show win0_6.index t (0 : Fin 2) * 1 + 1 * 0 = 0; omega
    | ⟨1, _⟩ => show win0_6.index t (1 : Fin 2) * 128 + 1 * q.val = q.val; omega
  show (V m c main_v14 : S1x128.Idx → EReal) _ = _
  rw [e, V_b3, shapeCast_a_1a_apply]

/-- Window 7's block, at any point, read at (k, q) is main_arg7 at (q, k). -/
theorem w4_at (c : Dev nD) (t : Fin cfg0.N) (k : Fin 128) (q : Fin 128) :
    (iblk m c 7 t : Vec Ideal S128x128 .bf16) (ix2 k q) = ((m ((c : Thread nD τ).loc main_arg7)) : S128x128.Idx → EReal) (ix2 q k) := by
  obtain ⟨-, -, -, -, -, -, -, -, -, -, -, -, -, -, -, -, e0, e1, -⟩ := idx_facts t
  unfold iblk
  rw [View.read_apply]
  have e : ((cfg0.win 7).blk t).view.emb (ix2 k q) = (ix2 k q : S128x128.Idx) := by
    funext a; apply Fin.ext
    match a with
    | ⟨0, _⟩ => show win0_7.index t (0 : Fin 2) * 128 + 1 * k.val = k.val; omega
    | ⟨1, _⟩ => show win0_7.index t (1 : Fin 2) * 128 + 1 * q.val = q.val; omega
  show (V m c main_v7 : S128x128.Idx → EReal) _ = _
  rw [e, V_w4, truncf_apply, transpose_ix2_apply]

/-- Window 8's block, at any point, read at (0, q) is main_arg8 at q. -/
theorem b4_at (c : Dev nD) (t : Fin cfg0.N) (q : Fin 128) :
    (iblk m c 8 t : Vec Ideal S1x128 .f32) (ix2 (0 : Fin 1) q) = ((m ((c : Thread nD τ).loc main_arg8)) : S128.Idx → EReal) (ix1 q) := by
  obtain ⟨-, -, -, -, -, -, -, -, -, -, -, -, -, -, -, -, -, -, e0, e1, -⟩ := idx_facts t
  unfold iblk
  rw [View.read_apply]
  have e : ((cfg0.win 8).blk t).view.emb (ix2 (0 : Fin 1) q) = (ix2 (0 : Fin 1) q : S1x128.Idx) := by
    funext a; apply Fin.ext
    match a with
    | ⟨0, _⟩ => show win0_8.index t (0 : Fin 2) * 1 + 1 * 0 = 0; omega
    | ⟨1, _⟩ => show win0_8.index t (1 : Fin 2) * 128 + 1 * q.val = q.val; omega
  show (V m c main_v15 : S1x128.Idx → EReal) _ = _
  rw [e, V_b4, shapeCast_a_1a_apply]

/-- Window 9's block, at any point, read at (k, q) is main_arg9 at (q, k). -/
theorem w5_at (c : Dev nD) (t : Fin cfg0.N) (k : Fin 128) (q : Fin 128) :
    (iblk m c 9 t : Vec Ideal S128x128 .bf16) (ix2 k q) = ((m ((c : Thread nD τ).loc main_arg9)) : S128x128.Idx → EReal) (ix2 q k) := by
  obtain ⟨-, -, -, -, -, -, -, -, -, -, -, -, -, -, -, -, -, -, -, -, e0, e1, -⟩ := idx_facts t
  unfold iblk
  rw [View.read_apply]
  have e : ((cfg0.win 9).blk t).view.emb (ix2 k q) = (ix2 k q : S128x128.Idx) := by
    funext a; apply Fin.ext
    match a with
    | ⟨0, _⟩ => show win0_9.index t (0 : Fin 2) * 128 + 1 * k.val = k.val; omega
    | ⟨1, _⟩ => show win0_9.index t (1 : Fin 2) * 128 + 1 * q.val = q.val; omega
  show (V m c main_v9 : S128x128.Idx → EReal) _ = _
  rw [e, V_w5, truncf_apply, transpose_ix2_apply]

/-- Window 10's block, at any point, read at (0, q) is main_arg10 at q. -/
theorem b5_at (c : Dev nD) (t : Fin cfg0.N) (q : Fin 128) :
    (iblk m c 10 t : Vec Ideal S1x128 .f32) (ix2 (0 : Fin 1) q) = ((m ((c : Thread nD τ).loc main_arg10)) : S128.Idx → EReal) (ix1 q) := by
  obtain ⟨-, -, -, -, -, -, -, -, -, -, -, -, -, -, -, -, -, -, -, -, -, -, e0, e1, -⟩ := idx_facts t
  unfold iblk
  rw [View.read_apply]
  have e : ((cfg0.win 10).blk t).view.emb (ix2 (0 : Fin 1) q) = (ix2 (0 : Fin 1) q : S1x128.Idx) := by
    funext a; apply Fin.ext
    match a with
    | ⟨0, _⟩ => show win0_10.index t (0 : Fin 2) * 1 + 1 * 0 = 0; omega
    | ⟨1, _⟩ => show win0_10.index t (1 : Fin 2) * 128 + 1 * q.val = q.val; omega
  show (V m c main_v16 : S1x128.Idx → EReal) _ = _
  rw [e, V_b5, shapeCast_a_1a_apply]

/-- Window 11's block, at any point, read at (k, q) is main_arg11 at (q, k). -/
theorem w6_at (c : Dev nD) (t : Fin cfg0.N) (k : Fin 128) (q : Fin 18) :
    (iblk m c 11 t : Vec Ideal S128x18 .bf16) (ix2 k q) = ((m ((c : Thread nD τ).loc main_arg11)) : S18x128.Idx → EReal) (ix2 q k) := by
  obtain ⟨-, -, -, -, -, -, -, -, -, -, -, -, -, -, -, -, -, -, -, -, -, -, -, -, e0, e1, -⟩ := idx_facts t
  unfold iblk
  rw [View.read_apply]
  have e : ((cfg0.win 11).blk t).view.emb (ix2 k q) = (ix2 k q : S128x18.Idx) := by
    funext a; apply Fin.ext
    match a with
    | ⟨0, _⟩ => show win0_11.index t (0 : Fin 2) * 128 + 1 * k.val = k.val; omega
    | ⟨1, _⟩ => show win0_11.index t (1 : Fin 2) * 18 + 1 * q.val = q.val; omega
  show (V m c main_v11 : S128x18.Idx → EReal) _ = _
  rw [e, V_w6, truncf_apply, transpose_ix2_apply]

/-- Window 12's block, at any point, read at (0, q) is main_arg12 at q. -/
theorem b6_at (c : Dev nD) (t : Fin cfg0.N) (q : Fin 18) :
    (iblk m c 12 t : Vec Ideal S1x18 .f32) (ix2 (0 : Fin 1) q) = ((m ((c : Thread nD τ).loc main_arg12)) : S18.Idx → EReal) (ix1 q) := by
  obtain ⟨-, -, -, -, -, -, -, -, -, -, -, -, -, -, -, -, -, -, -, -, -, -, -, -, -, -, e0, e1⟩ := idx_facts t
  unfold iblk
  rw [View.read_apply]
  have e : ((cfg0.win 12).blk t).view.emb (ix2 (0 : Fin 1) q) = (ix2 (0 : Fin 1) q : S1x18.Idx) := by
    funext a; apply Fin.ext
    match a with
    | ⟨0, _⟩ => show win0_12.index t (0 : Fin 2) * 1 + 1 * 0 = 0; omega
    | ⟨1, _⟩ => show win0_12.index t (1 : Fin 2) * 18 + 1 * q.val = q.val; omega
  show (V m c main_v17 : S1x18.Idx → EReal) _ = _
  rw [e, V_b6, shapeCast_a_1a_apply]

/-! ## What a point writes back, the cover, the array -/

/-- The specification of the argument arrays as launched. -/
abbrev result (c : Dev nD) : Buf (Elt Ideal) ((c : Thread nD τ).loc main_v18) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- WHAT POINT t WRITES BACK is block t of `result`. -/
theorem flushed_eq (c : Dev nD) (t : Fin cfg0.N) :
    (dats m 0 c).flushed 13 t = ((cfg0.win 13).blk t).view.read (Elt Ideal) (result m c) := by
  obtain ⟨-, -, e0, e1, -⟩ := idx_facts t
  have ht := point_lt t
  rw [flushed13]
  unfold out0_13
  rw [View.canon_unit_zero zero_offsets]
  simp only [View.ld_unit_zero (S := S4096x512) zero_offsets, View.ld_unit_zero (S := S512x128) zero_offsets,
    View.ld_unit_zero (S := S1x128) zero_offsets, View.ld_unit_zero (S := S128x128) zero_offsets,
    View.ld_unit_zero (S := S128x18) zero_offsets, View.ld_unit_zero (S := S1x18) zero_offsets]
  funext j
  obtain ⟨p, a, rfl⟩ : ∃ (p : Fin 4096) (a : Fin 18), j = ix2 p a := ⟨j 0, j 1, eq_ix2 j⟩
  have hr : 4096 * t.val + p.val < 131072 := by have := p.isLt; omega
  show k0_pay1 (F := Ideal) (k0_pay2 (F := Ideal) (iblk m c 0 t) (iblk m c 1 t) (iblk m c 2 t) (iblk m c 3 t) (iblk m c 4 t) (iblk m c 5 t) (iblk m c 6 t) (iblk m c 7 t)) (iblk m c 8 t) (iblk m c 9 t) (iblk m c 10 t) (iblk m c 11 t) (iblk m c 12 t) (ix2 p a)
    = result m c (((cfg0.win 13).blk t).view.emb (ix2 p a))
  refine (pay_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p a).trans ?_
  have ei : ((cfg0.win 13).blk t).view.emb (ix2 p a) = (ix2 (⟨4096 * t.val + p.val, hr⟩ : Fin 131072) a : S131072x18.Idx) := by
    funext b; apply Fin.ext
    match b with
    | ⟨0, _⟩ => show win0_13.index t (0 : Fin 2) * 4096 + 1 * p.val = 4096 * t.val + p.val; omega
    | ⟨1, _⟩ => show win0_13.index t (1 : Fin 2) * 18 + 1 * a.val = a.val; omega
  rw [ei]
  simp only [fun k => x_at m c t p k ⟨4096 * t.val + p.val, hr⟩ rfl,
    w1_at m c t, b1_at m c t, w2_at m c t, b2_at m c t, w3_at m c t, b3_at m c t, w4_at m c t, b4_at m c t, w5_at m c t, b5_at m c t, w6_at m c t, b6_at m c t]
  rfl

/-- An index of the result array is in point t's block iff each coordinate is in the block's range on its axis. -/
theorem mem_blk (t : Fin cfg0.N) (i : S131072x18.Idx) :
    i ∈ ((cfg0.win 13).blk t).view.set ↔ ∀ a : Fin 2, win0_13.index t a * S4096x18.size a ≤ (i a).val ∧ (i a).val < win0_13.index t a * S4096x18.size a + S4096x18.size a := by
  show i ∈ ((View.whole main_v18).slice (win0_13.rect t)).set ↔ _
  rw [View.set_slice_whole, Rect.mem_set_unit]
  exact Iff.rfl

/-- Row r of the result is in the block of point r / 4096, which writes back. -/
theorem cover (i : S131072x18.Idx) :
    ∃ t : Fin cfg0.N, (cfg0.win 13).flush t = true ∧ i ∈ ((cfg0.win 13).blk t).view.set := by
  have hi0 : (i 0).val < 131072 := (i 0).isLt
  have hi1 : (i 1).val < 18 := (i 1).isLt
  have hN : (i 0).val / 4096 < cfg0.N := by rw [show cfg0.N = 32 from N_0]; omega
  obtain ⟨-, -, e0, e1, -⟩ := idx_facts ⟨(i 0).val / 4096, hN⟩
  refine ⟨⟨(i 0).val / 4096, hN⟩, flush0_13 _, ?_⟩
  rw [mem_blk]
  intro a
  match a with
  | ⟨0, _⟩ =>
    show win0_13.index ⟨(i 0).val / 4096, hN⟩ (0 : Fin 2) * 4096 ≤ (i 0).val ∧ (i 0).val < win0_13.index ⟨(i 0).val / 4096, hN⟩ (0 : Fin 2) * 4096 + 4096
    rw [e0]
    show (i 0).val / 4096 * 4096 ≤ (i 0).val ∧ (i 0).val < (i 0).val / 4096 * 4096 + 4096
    omega
  | ⟨1, _⟩ =>
    show win0_13.index ⟨(i 0).val / 4096, hN⟩ (1 : Fin 2) * 18 ≤ (i 1).val ∧ (i 1).val < win0_13.index ⟨(i 0).val / 4096, hN⟩ (1 : Fin 2) * 18 + 18
    rw [e1]
    omega

/-- THE ARRAY after the run is `result`. -/
theorem final (c : Dev nD) : (dats m 0 c).arrAt 13 cfg0.N = result m c :=
  (dats m 0 c).arrAt_eq_of_cover 13 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final m c), (h c).2⟩) (run_blocks m ρ)

end Cert.KernelIdeal.Arr

end
-- ==== Proof.RefRow.lean ====
/-
  The reference's result is the specification. Its @main is five times (transpose the weights, dot_general, add the
  broadcast bias, maximum with a zero splat), once more without the maximum, and jax.nn.softmax over the last axis:
  each dense layer read at (r, q) is the row-level dense layer of row r of the layer's input, and the softmax stretch the
  row-level softmax of row r of the scores, so entry (r, a) is `policyRow` of row r of x.
-/
import proofs.«420143_j47321949667584_3_alg».proof.Proof.Gen.ReferenceIdeal.Read
import proofs.«420143_j47321949667584_3_alg».proof.Proof.Policy

noncomputable section

namespace Cert.ReferenceIdeal.Row

open Cert.ReferenceIdeal Cert.ReferenceIdeal.Gen Cert.ReferenceIdeal.Read Idealize.ShloMosaic Idealize.ShloMosaic.ValueIdx
open Idealize.ShloMosaic.DenseRow Idealize.ShloMosaic.RowReduce Cert.Policy

/-- The reference's last stage, as a function of the argument arrays, is `G` of them. -/
theorem ref_eq (x0 : (⟨S131072x512, .f32⟩ : BufTy).Contents (Elt Ideal)) (x1 : (⟨S128x512, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S18x128, .f32⟩ : BufTy).Contents (Elt Ideal)) (x12 : (⟨S18, .f32⟩ : BufTy).Contents (Elt Ideal)) :
    val_main_v45 (F := Ideal) x0 x1 x2 x3 x4 x5 x6 x7 x8 x9 x10 x11 x12 = G x0 x1 x2 x3 x4 x5 x6 x7 x8 x9 x10 x11 x12 := by
  funext i
  obtain ⟨r, a, rfl⟩ : ∃ (r : Fin 131072) (a : Fin 18), i = ix2 r a := ⟨i 0, i 1, eq_ix2 i⟩
  simp only [val_main_v45, val_main_v44, val_main_v43, val_main_v42, val_main_cst_1, val_main_v41, val_main_v40, val_main_v39, val_main_v38, val_main_v37, val_main_v36, val_main_cst_0, val_main_v35, val_main_cst, val_main_v34, val_main_v33, val_main_v32, val_main_v31, val_main_v30, val_main_v29, val_main_call4_v0, val_main_call4_cst, val_main_v28, val_main_v27, val_main_v26, val_main_v25, val_main_v24, val_main_v23, val_main_call3_v0, val_main_call3_cst, val_main_v22, val_main_v21, val_main_v20, val_main_v19, val_main_v18, val_main_v17, val_main_call2_v0, val_main_call2_cst, val_main_v16, val_main_v15, val_main_v14, val_main_v13, val_main_v12, val_main_v11, val_main_call1_v0, val_main_call1_cst, val_main_v10, val_main_v9, val_main_v8, val_main_v7, val_main_v6, val_main_v5, val_main_call0_v0, val_main_call0_cst, val_main_v4, val_main_v3, val_main_v2, val_main_v1, val_main_v0]
  simp only [host_softmax_at (hred := (by decide : (⟨2, ![131072, 18]⟩ : Shape).Reduces [1] ⟨1, ![131072]⟩)),
    host_dense_at dot_S131072x512_S512x128_S131072x128_1_0_0_1_n_n rfl rfl rfl rfl rfl rfl rfl rfl,
    host_dense_at dot_S131072x128_S128x128_S131072x128_1_0_0_1_n_n rfl rfl rfl rfl rfl rfl rfl rfl,
    host_dense_at dot_S131072x128_S128x18_S131072x18_1_0_0_1_n_n rfl rfl rfl rfl rfl rfl rfl rfl,
    maximumf_apply, broadcastInDim_scalar_apply, constant_apply]
  rfl

end Cert.ReferenceIdeal.Row

end
-- ==== Proof.lean ====
/- A policy network on a batch of 131072 rows: five dense layers 512 → 128 → 128 → 128 → 128 → 128, each followed by the
   maximum with zero, a sixth dense layer to 18 scores, and the softmax of each row's scores.

   The kernel is handed the weights transposed and cast to bf16 and the biases as single rows, takes the batch in 32
   blocks of 4096 rows, and computes each block with six matrix products into zero accumulators, a lane maximum and a
   lane sum; the reference multiplies the whole batch by each transposed weight array and calls jax.nn.softmax. Over the
   extended reals a change of float format is the identity, a matrix product into a zero accumulator and a host
   dot_general are the same sum of products, and the lane reductions and the host's reductions are the same fold and the
   same sum; the softmax is spelt the same way on both sides (subtract the row maximum, exponentiate, divide by the row
   sum) with the same two literals, −∞ and 0. So both result arrays are ONE function `Policy.G` of the argument arrays:
   entry (r, a) is the row function `Policy.policyRow` of row r of x, at a. No law that needs finite entries is used:
   the two sides are the same arrangement of the same sums, so the precondition is never opened.

   The modules: LibRowReduce (a matrix's last-axis reductions and their keepdims re-laying at an index), LibMatmulAt and
   LibDotAt (a plain product at an index), LibDenseSoftmax (a dense layer and a row softmax, on the host and on a block,
   at an index, and the row-level functions), Policy (the specification), KernelRow (the body's stored value at an index),
   KernelArray (each window's block at a point, what a point writes back, the cover, the kernel's run), RefRow (the
   reference's last stage is the specification). Here: the three frames — the kernels' from their generated frames, the
   reference's from its generated run —, the empty idealization ledger, and the two runs set side by side. -/
import proofs.«420143_j47321949667584_3_alg».proof.Defs
import proofs.«420143_j47321949667584_3_alg».proof.Proof.Gen.Kernel
import proofs.«420143_j47321949667584_3_alg».proof.Proof.Gen.Kernel.Skeleton
import proofs.«420143_j47321949667584_3_alg».proof.Proof.Gen.Kernel.Launch
import proofs.«420143_j47321949667584_3_alg».proof.Proof.Gen.Kernel.Points
import proofs.«420143_j47321949667584_3_alg».proof.Proof.Gen.Kernel.Frame
import proofs.«420143_j47321949667584_3_alg».proof.Proof.Gen.KernelIdeal
import proofs.«420143_j47321949667584_3_alg».proof.Proof.Gen.KernelIdeal.Skeleton
import proofs.«420143_j47321949667584_3_alg».proof.Proof.Gen.KernelIdeal.Launch
import proofs.«420143_j47321949667584_3_alg».proof.Proof.Gen.KernelIdeal.Points
import proofs.«420143_j47321949667584_3_alg».proof.Proof.Gen.KernelIdeal.Frame
import proofs.«420143_j47321949667584_3_alg».proof.Proof.Gen.ReferenceIdeal
import proofs.«420143_j47321949667584_3_alg».proof.Proof.Gen.Pre_finite_inputs
import proofs.«420143_j47321949667584_3_alg».proof.Proof.Gen.KernelIdeal.Value
import proofs.«420143_j47321949667584_3_alg».proof.Proof.Gen.ReferenceIdeal.Run
import proofs.«420143_j47321949667584_3_alg».proof.Proof.Gen.ReferenceIdeal.Read
import Idealize.ShloMosaic.Adequacy
import Idealize.ShloMosaic.Init

import proofs.«420143_j47321949667584_3_alg».proof.Proof.KernelArray
import proofs.«420143_j47321949667584_3_alg».proof.Proof.RefRow

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification of those arguments in their
    result arrays: the kernel by its run read block by block, the reference by its run read stage by stage. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v45_eq, Cert.ReferenceIdeal.Row.ref_eq, h0, h1, h2, h3, h4, h5, h6, h7, h8, h9,
    h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
